-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128 .f32) (main_arg6 : FVec F S64x128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 61
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S100000x128, .f32⟩
  | .hbm, ⟨52, _⟩ => ⟨S800000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S128x64, .f32⟩
  | .hbm, ⟨58, _⟩ => ⟨S128x64, .f32⟩
  | .hbm, ⟨59, _⟩ => ⟨S1x64, .f32⟩
  | .hbm, ⟨60, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S100000x128, .f32⟩
  | .hbm, ⟨20, _⟩ => ⟨S800000x1, .i32⟩
  | .hbm, ⟨21, _⟩ => ⟨S100000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S100000, .f32⟩
  | .hbm, ⟨26, _⟩ => ⟨S800000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S100000x128, .f32⟩
  | .hbm, ⟨56, _⟩ => ⟨S800000x1, .i32⟩
  | .hbm, ⟨57, _⟩ => ⟨S100000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S100000, .f32⟩
  | .hbm, ⟨62, _⟩ => ⟨S800000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x64, .f32⟩
  | .hbm, ⟨71, _⟩ => ⟨S100000x64, .f32⟩
  | .hbm, ⟨72, _⟩ => ⟨S128x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The computation both programs perform, as ONE function of the argument arrays.

  A graph convolution with a mean aggregator over N = 100000 nodes of width 128: for node features `h`,
    layer h  =  h · Wsᵀ  +  mean(h) · Wnᵀ  +  b,      mean(h) r  =  (Σ_{edges e into r} h (src e)) / max (deg r) 1,
  applied twice, with `max · 0` between the two applications. The sum over the edges into a node (a gather of the
  source rows followed by an accumulating scatter to the destination rows) is carried here as an unopened function
  `A` of the feature matrix, and the clamped in-degree as an unopened column `d`: both programs compute them by the
  same host operations on the same edge lists, and nothing below depends on what they are beyond `d r ≠ 0`.

  The one place where the two programs differ in arithmetic is the mean: one divides the aggregated row by the
  clamped degree, the other multiplies it by the reciprocal `1 / d r` computed once. On the extended reals
  `x / y = x · y⁻¹` for every `y ≠ 0` (the infinities included, whose inverse is 0), so `x · (1 / y) = x / y` there,
  and `max g 1 ≥ 1 > 0` whatever `g` is: no finiteness of any input is used.

  Also here: a matrix product `M×128` by `128×N` read at an entry as the sum over the 128 contracted positions, for
  the kernel's product into a zero accumulator and for the host's product alike.
-/
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- A matrix of extended reals with `a` rows and `b` columns. -/
abbrev Mat (a b : Nat) : Type := (⟨2, ![a, b]⟩ : Shape).Idx → EReal
/-- A column of `a` extended reals. -/
abbrev Col (a : Nat) : Type := (⟨1, ![a]⟩ : Shape).Idx → EReal

/-! ## The specification -/

/-- The dense part of one layer at entry (r, q): `Σ_k h[r,k]·ws[k,q] + Σ_k hn[r,k]·wn[k,q] + b[q]`; the two weight
    matrices are given with the contracted axis first (they are the transposes of the stored ones). -/
def layer {N : Nat} (h hn : Mat 100000 128) (ws wn : Mat 128 N) (b : Fin N → EReal) : Mat 100000 N :=
  fun i => (∑ k : Fin 128, h (ix2 (i 0) k) * ws (ix2 k (i 1))) + (∑ k : Fin 128, hn (ix2 (i 0) k) * wn (ix2 k (i 1))) + b (i 1)

/-- The neighbour mean: row r of the aggregated features divided by the clamped in-degree of r. -/
def mean (agg : Mat 100000 128) (d : Col 100000) : Mat 100000 128 :=
  fun i => Ideal.div (agg i) (d (ix1 (i 0)))

/-- The hidden features: the first layer of the input, negative entries replaced by zero. -/
def hidden (A : Mat 100000 128 → Mat 100000 128) (d : Col 100000) (x : Mat 100000 128) (ws1 wn1 : Mat 128 128)
    (b1 : Fin 128 → EReal) : Mat 100000 128 :=
  fun i => max (layer x (mean (A x) d) ws1 wn1 b1 i) 0

/-- The result: the second layer of the hidden features. -/
def out (A : Mat 100000 128 → Mat 100000 128) (d : Col 100000) (x : Mat 100000 128) (ws1 wn1 : Mat 128 128)
    (b1 : Fin 128 → EReal) (ws2 wn2 : Mat 128 64) (b2 : Fin 64 → EReal) : Mat 100000 64 :=
  layer (hidden A d x ws1 wn1 b1) (mean (A (hidden A d x ws1 wn1 b1)) d) ws2 wn2 b2

/-! ## The mean by a reciprocal -/

/-- A degree clamped below by one is not zero, whatever the degree is. -/
theorem clamp_ne_zero (g : EReal) : max g 1 ≠ 0 :=
  (lt_of_lt_of_le zero_lt_one (le_max_right g 1)).ne'

/-- Multiplying each aggregated row by the reciprocal of a nonzero degree is dividing it by the degree. -/
theorem mean_of_reciprocal (agg : Mat 100000 128) (d : Col 100000) (hd : ∀ j, d j ≠ 0) :
    (fun i => agg i * Ideal.div 1 (d (ix1 (i 0)))) = mean agg d :=
  funext fun i => Ideal.mul_one_div (hd (ix1 (i 0)))

/-! ## A plain matrix product at an entry -/

section Product

variable {M N : Nat}

theorem plain_lhs_row (i : (⟨2, ![M, N]⟩ : Shape).Idx) (q : (DotDims.plain M 128 N).contr.Idx) :
    ((DotDims.plain M 128 N).lhsIdx i q 0).val = (i 0).val := rfl
theorem plain_lhs_col (i : (⟨2, ![M, N]⟩ : Shape).Idx) (q : (DotDims.plain M 128 N).contr.Idx) :
    ((DotDims.plain M 128 N).lhsIdx i q 1).val = (q ⟨0, Nat.one_pos⟩).val :=
  (DotDims.plain M 128 N).lhsIdx_val_of_single rfl i q
theorem plain_rhs_row (i : (⟨2, ![M, N]⟩ : Shape).Idx) (q : (DotDims.plain M 128 N).contr.Idx) :
    ((DotDims.plain M 128 N).rhsIdx i q 0).val = (q ⟨0, Nat.one_pos⟩).val :=
  (DotDims.plain M 128 N).rhsIdx_val_of_single rfl i q
theorem plain_rhs_col (i : (⟨2, ![M, N]⟩ : Shape).Idx) (q : (DotDims.plain M 128 N).contr.Idx) :
    ((DotDims.plain M 128 N).rhsIdx i q 1).val = (i 1).val := rfl

/-- The sum over the contraction index of a plain product is the sum over the 128 positions of the contracted axis:
    entry (p, q) pairs row p of the left factor with column q of the right. -/
theorem plain_sum (l : Mat M 128) (r : Mat 128 N) (p : Fin M) (q : Fin N) :
    (∑ k : (DotDims.plain M 128 N).contr.Idx,
        l ((DotDims.plain M 128 N).lhsIdx (ix2 p q) k) * r ((DotDims.plain M 128 N).rhsIdx (ix2 p q) k))
      = ∑ k : Fin 128, l (ix2 p k) * r (ix2 k q) := by
  rw [← Equiv.sum_comp (contrEquiv1 (DotDims.plain M 128 N) 128 rfl rfl).symm]
  refine Finset.sum_congr rfl fun k _ => ?_
  have hk := contrEquiv1_symm_val (DotDims.plain M 128 N) 128 rfl rfl k
  have el : (DotDims.plain M 128 N).lhsIdx (ix2 p q) ((contrEquiv1 (DotDims.plain M 128 N) 128 rfl rfl).symm k) = ix2 p k :=
    funext fun a => Fin.ext (by
      match a with
      | ⟨0, _⟩ => exact plain_lhs_row _ _
      | ⟨1, _⟩ => exact (plain_lhs_col _ _).trans hk)
  have er : (DotDims.plain M 128 N).rhsIdx (ix2 p q) ((contrEquiv1 (DotDims.plain M 128 N) 128 rfl rfl).symm k) = ix2 k q :=
    funext fun a => Fin.ext (by
      match a with
      | ⟨0, _⟩ => exact (plain_rhs_row _ _).trans hk
      | ⟨1, _⟩ => exact plain_rhs_col _ _)
  rw [el, er]

/-- The kernel's product into a zero accumulator, at entry (p, q). -/
theorem matmul_plain_apply {φ₁ φ₂ : FTy} (l : FVec Ideal ⟨2, ![M, 128]⟩ φ₁) (r : FVec Ideal ⟨2, ![128, N]⟩ φ₂) (p : Fin M) (q : Fin N) :
    matmul (DotDims.plain M 128 N) none l r (constant (F := Ideal) ⟨2, ![M, N]⟩ .f32 0x00000000#32) (ix2 p q)
      = ∑ k : Fin 128, l (ix2 p k) * r (ix2 k q) :=
  (Ideal.matmul_constant_zero_apply (DotDims.plain M 128 N) none l r (ix2 p q)).trans (plain_sum l r p q)

/-- The host's product, at entry (p, q). -/
theorem dotGeneral_plain_apply {φ₁ φ₂ : FTy} (l : FVec Ideal ⟨2, ![M, 128]⟩ φ₁) (r : FVec Ideal ⟨2, ![128, N]⟩ φ₂) (p : Fin M) (q : Fin N) :
    Host.dotGeneral (DotDims.plain M 128 N) none l r (ix2 p q) = ∑ k : Fin 128, l (ix2 p k) * r (ix2 k q) := by
  simp only [Host.dotGeneral]
  exact (Ideal.dotGeneral_apply (DotDims.plain M 128 N) none _ l r (ix2 p q)).trans (plain_sum l r p q)

end Product

end Cert.Sage

end
-- ==== Proof.Region0.lean ====
/-
  The first pallas_call as a function on arrays.

  The call walks 20 grid points; point t stages rows 5000·t … 5000·t + 4999 of the node features and of the
  neighbour means, the two whole 128×128 weight matrices and the one-row bias, and writes back rows
  5000·t … 5000·t + 4999 of the result. Its body computes, for the staged row block,
      max (X·Ws + Hn·Wn + b, 0)
  with both products accumulated into zero (the conversions to a shorter float format before the products are the
  identity on extended reals). So entry (r, q) of the result array depends on row r of the two feature arrays only,
  and the 20 row blocks tile the 100000 rows: after the call the result array is
      fun (r, q) => max (Σ_k X[r,k]·Ws[k,q] + Σ_k Hn[r,k]·Wn[k,q] + b[0,q], 0)
  of the arrays as the call finds them, whatever those are.
-/
import proofs.«136425_j25598005084435_1_alg».proof.Proof.Gen.KernelIdeal.Frame
import proofs.«136425_j25598005084435_1_alg».proof.Proof.Spec
import Idealize.ShloMosaic.Lib.Pipeline.Value
import Idealize.ShloMosaic.Lib.ValueLayout

set_option maxRecDepth 16384

noncomputable section

namespace Cert.KernelIdeal.Dense

open Idealize.ShloMosaic Idealize.ShloMosaic.TcCoe Idealize.SL.Sem Idealize.ShloMosaic.ValueIdx
open Idealize.ShloMosaic.Pipeline (Dat)
open Cert.KernelIdeal Cert.KernelIdeal.Gen Cert.Sage

theorem hz : (![0, 0] : Fin 2 → Nat) = fun _ => 0 := funext fun a => by fin_cases a <;> rfl

/-- The body's product record is the plain `5000×128` by `128×128` one. -/
theorem dot0_plain : dot_S5000x128_S128x128_S5000x128_1_0_0_1_n_n = DotDims.plain 5000 128 128 := rfl

/-! ## The body's value at an entry of the row block -/

/-- Entry (p, q) of what the body stores, from the five staged blocks. -/
theorem body0_apply (x hn : Vec Ideal S5000x128 .f32) (ws wn : Vec Ideal S128x128 .f32) (b : Vec Ideal S1x128 .f32)
    (p : Fin 5000) (q : Fin 128) :
    k0_pay1 (F := Ideal) x hn ws wn b (ix2 p q)
      = max ((∑ k : Fin 128, x (ix2 p k) * ws (ix2 k q)) + (∑ k : Fin 128, hn (ix2 p k) * wn (ix2 k q)) + b (ix2 0 q)) 0 := by
  unfold k0_pay1
  simp only [shapeCast_self, dot0_plain]
  show max (matmul (DotDims.plain 5000 128 128) none x ws (constant (F := Ideal) ⟨2, ![5000, 128]⟩ .f32 0x00000000#32) (ix2 p q)
      + matmul (DotDims.plain 5000 128 128) none hn wn (constant (F := Ideal) ⟨2, ![5000, 128]⟩ .f32 0x00000000#32) (ix2 p q)
      + broadcastTo ⟨2, ![5000, 128]⟩ b _ (ix2 p q)) (Ideal.ofBits .f32 0x00000000#32) = _
  rw [matmul_plain_apply, matmul_plain_apply, broadcastTo_1b_ab_apply, Ideal.ofBits_zero_f32]

/-! ## Where each staged block sits in its array -/

/-- The block index maps over the grid: the row-blocked windows move with the point, the others stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable (V : (c : Dev nD) → (b : Ref sig .tc) → Buf (Elt Ideal) ((c : Thread nD τ).loc b))

/-- Row p of the feature block at point t is row 5000·t + p of the feature array. -/
theorem x_block (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The same for the neighbour means. -/
theorem hn_block (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_v20 : S100000x128.Idx → EReal) i := by
  obtain ⟨-, -, e0, e1, -⟩ := idx0 t
  unfold iblk0
  rw [View.read_apply]
  show V c main_v20 _ = V c main_v20 _
  congr 1
  funext a; apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The staged weight matrices and bias are the whole arrays, at every point. -/
theorem ws_block (c : Dev nD) (t : Fin cfg0.N) (y : S128x128.Idx) :
    (iblk0 V c 2 t : Vec Ideal S128x128 .f32) y = (V c main_v21 : S128x128.Idx → EReal) y := by
  obtain ⟨-, -, -, -, e0, e1, -⟩ := idx0 t
  unfold iblk0
  rw [View.read_apply]
  show V c main_v21 _ = V c main_v21 _
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem wn_block (c : Dev nD) (t : Fin cfg0.N) (y : S128x128.Idx) :
    (iblk0 V c 3 t : Vec Ideal S128x128 .f32) y = (V c main_v22 : S128x128.Idx → EReal) y := by
  obtain ⟨-, -, -, -, -, -, e0, e1, -⟩ := idx0 t
  unfold iblk0
  rw [View.read_apply]
  show V c main_v22 _ = V c main_v22 _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem b_block (c : Dev nD) (t : Fin cfg0.N) (y : S1x128.Idx) :
    (iblk0 V c 4 t : Vec Ideal S1x128 .f32) y = (V c main_v23 : S1x128.Idx → EReal) y := by
  obtain ⟨-, -, -, -, -, -, -, -, e0, e1, -⟩ := idx0 t
  unfold iblk0
  rw [View.read_apply]
  show V c main_v23 _ = V c main_v23 _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## The result array -/

/-- What the call leaves in its result array, as one function of the arrays it finds. -/
def result0 (c : Dev nD) : S100000x128.Idx → EReal :=
  fun i => max (layer (V c main_arg0 : S100000x128.Idx → EReal) (V c main_v20 : S100000x128.Idx → EReal)
    (V c main_v21 : S128x128.Idx → EReal) (V c main_v22 : S128x128.Idx → EReal)
    (fun q => (V c main_v23 : S1x128.Idx → EReal) (ix2 0 q)) i) 0

/-- What point t writes back is rows 5000·t … of `result0`. -/
theorem flushed0 (c : Dev nD) (t : Fin cfg0.N) :
    (dat0 V c).flushed 5 t = ((cfg0.win 5).blk t).view.read (Elt Ideal) (result0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx0 t
  funext y
  obtain ⟨p, q, rfl⟩ : ∃ (p : Fin 5000) (q : Fin 128), y = ix2 p q := ⟨y 0, y 1, eq_ix2 y⟩
  rw [View.read_apply]
  refine (body0_apply (iblk0 V c 0 t) (iblk0 V c 1 t) (iblk0 V c 2 t) (iblk0 V c 3 t) (iblk0 V c 4 t) p q).trans ?_
  have r0 : ((((cfg0.win 5).blk t).view.emb (ix2 p q) : S100000x128.Idx) 0).val = t.val * 5000 + p.val := by
    show win0_5.index t (0 : Fin 2) * 5000 + 1 * p.val = _; rw [e0]; omega
  have r1 : ((((cfg0.win 5).blk t).view.emb (ix2 p q) : S100000x128.Idx) 1).val = q.val := by
    show win0_5.index t (1 : Fin 2) * 128 + 1 * q.val = _; rw [e1]; omega
  unfold result0 layer
  refine congrArg (max · 0) (congrArg₂ (· + ·) (congrArg₂ (· + ·) (Finset.sum_congr rfl fun k _ => ?_) (Finset.sum_congr rfl fun k _ => ?_)) ?_)
  · exact congrArg₂ (· * ·) (x_block V c t (ix2 p k) _ r0 rfl)
      ((ws_block V c t (ix2 k q)).trans (congrArg (V c main_v21 : S128x128.Idx → EReal) (Shape.idx_ext₂ rfl r1.symm)))
  · exact congrArg₂ (· * ·) (hn_block V c t (ix2 p k) _ r0 rfl)
      ((wn_block V c t (ix2 k q)).trans (congrArg (V c main_v22 : S128x128.Idx → EReal) (Shape.idx_ext₂ rfl r1.symm)))
  · exact (b_block V c t (ix2 0 q)).trans (congrArg (V c main_v23 : S1x128.Idx → EReal) (Shape.idx_ext₂ rfl r1.symm))

/-- An index is in point t's block iff its row is among the block's 5000 rows. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every row lies in the block of the point `row / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- After the call the result array holds `result0` of the arrays the call found. -/
theorem final0 (c : Dev nD) : (dat0 V c).arrAt 5 cfg0.N = result0 V c :=
  (dat0 V c).arrAt_eq_of_cover 5 (result0 V c) (fun t _ => flushed0 V c t) cover0

end Blocks

end Cert.KernelIdeal.Dense

end
-- ==== Proof.Region1.lean ====
/-
  The second pallas_call as a function on arrays.

  Again 20 grid points; point t stages rows 5000·t … 5000·t + 4999 of the hidden features and of their neighbour
  means (both 128 wide), the two whole 128×64 weight matrices and the one-row bias of width 64, and writes back rows
  5000·t … 5000·t + 4999 of the 100000×64 result. The body computes  H·Ws + Hn·Wn + b  for the staged row block,
  with no clamp at zero this time. After the call the result array is
      fun (r, q) => Σ_k H[r,k]·Ws[k,q] + Σ_k Hn[r,k]·Wn[k,q] + b[0,q]
  of the arrays as the call finds them.
-/
import proofs.«136425_j25598005084435_1_alg».proof.Proof.Gen.KernelIdeal.Frame
import proofs.«136425_j25598005084435_1_alg».proof.Proof.Spec
import Idealize.ShloMosaic.Lib.Pipeline.Value
import Idealize.ShloMosaic.Lib.ValueLayout

set_option maxRecDepth 16384

noncomputable section

namespace Cert.KernelIdeal.Out

open Idealize.ShloMosaic Idealize.ShloMosaic.TcCoe Idealize.SL.Sem Idealize.ShloMosaic.ValueIdx
open Idealize.ShloMosaic.Pipeline (Dat)
open Cert.KernelIdeal Cert.KernelIdeal.Gen Cert.Sage

theorem hz : (![0, 0] : Fin 2 → Nat) = fun _ => 0 := funext fun a => by fin_cases a <;> rfl

/-- The body's product record is the plain `5000×128` by `128×64` one. -/
theorem dot1_plain : dot_S5000x128_S128x64_S5000x64_1_0_0_1_n_n = DotDims.plain 5000 128 64 := rfl

/-! ## The body's value at an entry of the row block -/

/-- Entry (p, q) of what the body stores, from the five staged blocks. -/
theorem body1_apply (h hn : Vec Ideal S5000x128 .f32) (ws wn : Vec Ideal S128x64 .f32) (b : Vec Ideal S1x64 .f32)
    (p : Fin 5000) (q : Fin 64) :
    k1_pay1 (F := Ideal) h hn ws wn b (ix2 p q)
      = (∑ k : Fin 128, h (ix2 p k) * ws (ix2 k q)) + (∑ k : Fin 128, hn (ix2 p k) * wn (ix2 k q)) + b (ix2 0 q) := by
  unfold k1_pay1
  simp only [shapeCast_self, dot1_plain]
  show matmul (DotDims.plain 5000 128 64) none h ws (constant (F := Ideal) ⟨2, ![5000, 64]⟩ .f32 0x00000000#32) (ix2 p q)
      + matmul (DotDims.plain 5000 128 64) none hn wn (constant (F := Ideal) ⟨2, ![5000, 64]⟩ .f32 0x00000000#32) (ix2 p q)
      + broadcastTo ⟨2, ![5000, 64]⟩ b _ (ix2 p q) = _
  rw [matmul_plain_apply, matmul_plain_apply, broadcastTo_1b_ab_apply]

/-! ## Where each staged block sits in its array -/

/-- The block index maps over the grid: the row-blocked windows move with the point, the others stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b))

/-- Row p of the hidden-feature block at point t is row 5000·t + p of the hidden-feature array. -/
theorem h_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v24 : S100000x128.Idx → EReal) i := by
  obtain ⟨e0, e1, -⟩ := idx1 t
  unfold iblk1
  rw [View.read_apply]
  show V c main_v24 _ = V c main_v24 _
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The same for the neighbour means of the hidden features. -/
theorem hn_block (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v37 : S100000x128.Idx → EReal) i := by
  obtain ⟨-, -, e0, e1, -⟩ := idx1 t
  unfold iblk1
  rw [View.read_apply]
  show V c main_v37 _ = V c main_v37 _
  congr 1
  funext a; apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The staged weight matrices and bias are the whole arrays, at every point. -/
theorem ws_block (c : Dev nD) (t : Fin cfg1.N) (y : S128x64.Idx) :
    (iblk1 V c 2 t : Vec Ideal S128x64 .f32) y = (V c main_v38 : S128x64.Idx → EReal) y := by
  obtain ⟨-, -, -, -, e0, e1, -⟩ := idx1 t
  unfold iblk1
  rw [View.read_apply]
  show V c main_v38 _ = V c main_v38 _
  congr 1
  funext a; apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

theorem wn_block (c : Dev nD) (t : Fin cfg1.N) (y : S128x64.Idx) :
    (iblk1 V c 3 t : Vec Ideal S128x64 .f32) y = (V c main_v39 : S128x64.Idx → EReal) y := by
  obtain ⟨-, -, -, -, -, -, e0, e1, -⟩ := idx1 t
  unfold iblk1
  rw [View.read_apply]
  show V c main_v39 _ = V c main_v39 _
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

theorem b_block (c : Dev nD) (t : Fin cfg1.N) (y : S1x64.Idx) :
    (iblk1 V c 4 t : Vec Ideal S1x64 .f32) y = (V c main_v40 : S1x64.Idx → EReal) y := by
  obtain ⟨-, -, -, -, -, -, -, -, e0, e1, -⟩ := idx1 t
  unfold iblk1
  rw [View.read_apply]
  show V c main_v40 _ = V c main_v40 _
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-! ## The result array -/

/-- What the call leaves in its result array, as one function of the arrays it finds. -/
def result1 (c : Dev nD) : S100000x64.Idx → EReal :=
  layer (V c main_v24 : S100000x128.Idx → EReal) (V c main_v37 : S100000x128.Idx → EReal)
    (V c main_v38 : S128x64.Idx → EReal) (V c main_v39 : S128x64.Idx → EReal)
    (fun q => (V c main_v40 : S1x64.Idx → EReal) (ix2 0 q))

/-- What point t writes back is rows 5000·t … of `result1`. -/
theorem flushed1 (c : Dev nD) (t : Fin cfg1.N) :
    (dat1 V c).flushed 5 t = ((cfg1.win 5).blk t).view.read (Elt Ideal) (result1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx1 t
  funext y
  obtain ⟨p, q, rfl⟩ : ∃ (p : Fin 5000) (q : Fin 64), y = ix2 p q := ⟨y 0, y 1, eq_ix2 y⟩
  rw [View.read_apply]
  refine (body1_apply (iblk1 V c 0 t) (iblk1 V c 1 t) (iblk1 V c 2 t) (iblk1 V c 3 t) (iblk1 V c 4 t) p q).trans ?_
  have r0 : ((((cfg1.win 5).blk t).view.emb (ix2 p q) : S100000x64.Idx) 0).val = t.val * 5000 + p.val := by
    show win1_5.index t (0 : Fin 2) * 5000 + 1 * p.val = _; rw [e0]; omega
  have r1 : ((((cfg1.win 5).blk t).view.emb (ix2 p q) : S100000x64.Idx) 1).val = q.val := by
    show win1_5.index t (1 : Fin 2) * 64 + 1 * q.val = _; rw [e1]; omega
  unfold result1 layer
  refine congrArg₂ (· + ·) (congrArg₂ (· + ·) (Finset.sum_congr rfl fun k _ => ?_) (Finset.sum_congr rfl fun k _ => ?_)) ?_
  · exact congrArg₂ (· * ·) (h_block V c t (ix2 p k) _ r0 rfl)
      ((ws_block V c t (ix2 k q)).trans (congrArg (V c main_v38 : S128x64.Idx → EReal) (Shape.idx_ext₂ rfl r1.symm)))
  · exact congrArg₂ (· * ·) (hn_block V c t (ix2 p k) _ r0 rfl)
      ((wn_block V c t (ix2 k q)).trans (congrArg (V c main_v39 : S128x64.Idx → EReal) (Shape.idx_ext₂ rfl r1.symm)))
  · exact (b_block V c t (ix2 0 q)).trans (congrArg (V c main_v40 : S1x64.Idx → EReal) (Shape.idx_ext₂ rfl r1.symm))

/-- An index is in point t's block iff its row is among the block's 5000 rows. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every row lies in the block of the point `row / 5000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e0, e1⟩ := idx1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

/-- After the call the result array holds `result1` of the arrays the call found. -/
theorem final1 (c : Dev nD) : (dat1 V c).arrAt 5 cfg1.N = result1 V c :=
  (dat1 V c).arrAt_eq_of_cover 5 (result1 V c) (fun t _ => flushed1 V c t) cover1

end Blocks

end Cert.KernelIdeal.Out

end
-- ==== Proof.Edges.lean ====
/-
  The host operations around the two pallas_calls.

  Before the first call and again between the two, @main aggregates node features over the graph's edges: it gathers
  the feature row of every edge's source node and adds it into the row of the edge's destination node (an accumulating
  scatter into zeros). `edgeSum` names that chain of host operations as one function of the feature matrix; it is
  never opened. `degree` is the in-degree computed the same way from a column of ones, clamped below by one, and
  `recip` its entrywise reciprocal, computed once before the first call and read again between the calls. The
  neighbour mean the program hands to each call is the edge sum times the reciprocal broadcast along the rows
  (`meanBy`); since a clamped degree is never zero this is the edge sum divided by the degree (`meanBy_eq`).

  The rest reads off what each call finds in the arrays it stages: the first call's operands from the launch memory
  (`entry0_*`), the second call's from the first call's result array and, again, the launch memory (`entry1_*`).
-/
import proofs.«136425_j25598005084435_1_alg».proof.Proof.Gen.KernelIdeal.Frame
import proofs.«136425_j25598005084435_1_alg».proof.Proof.Spec
import Idealize.ShloMosaic.Lib.Pipeline.Value
import Idealize.ShloMosaic.Lib.IdealHost
import Idealize.ShloMosaic.Lib.StableHlo.Run

set_option maxRecDepth 16384

noncomputable section

namespace Cert.KernelIdeal.Edges

open Idealize.ShloMosaic Idealize.ShloMosaic.TcCoe Idealize.SL.Sem Idealize.ShloMosaic.ValueIdx Idealize.ShloMosaic.StableHlo
open Cert.KernelIdeal Cert.KernelIdeal.Gen Cert.Sage

/-! ## The aggregation over the edges -/

/-- The sum, into each node's row, of the feature rows of the sources of the edges into it. -/
def edgeSum (src dst : IVec S800000 32) (h : FVec Ideal S100000x128 .f32) :
    FVec Ideal S100000x128 .f32 :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The in-degree of each node, clamped below by one. -/
def degree (dst : IVec S800000 32) : FVec Ideal S100000 .f32 :=
  maximumf
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S100000 ![] bcast_S_S100000 (constant (F := Ideal) S_ .f32 0x3F800000#32))

/-- Its entrywise reciprocal. -/
def recip (dst : IVec S800000 32) : FVec Ideal S100000 .f32 :=
  Host.divf (broadcastInDim S100000 ![] bcast_S_S100000 (constant (F := Ideal) S_ .f32 0x3F800000#32)) (degree dst)

/-- The neighbour mean as the program computes it: the edge sum times the reciprocal degree, row by row. -/
def meanBy (src dst : IVec S800000 32) (h : FVec Ideal S100000x128 .f32) :
    FVec Ideal S100000x128 .f32 :=
  mulf (edgeSum src dst h)
    (broadcastInDim S100000x128 ![0, 1] bcast_S100000x1_S100000x128_0_1 (broadcastInDim S100000x1 ![0] bcast_S100000_S100000x1_0 (recip dst)))

/-- A column laid along the 128 entries of each row reads, at (p, q), the column at p. -/
theorem column_along_rows (r : FVec Ideal S100000 .f32) (p : Fin 100000) (q : Fin 128) :
    broadcastInDim S100000x128 ![0, 1] bcast_S100000x1_S100000x128_0_1 (broadcastInDim S100000x1 ![0] bcast_S100000_S100000x1_0 r) (ix2 p q)
      = r (ix1 p) := by
  refine (broadcastInDim_apply ![0, 1] bcast_S100000x1_S100000x128_0_1 _ (ix2 p q) (ix2 p (0 : Fin 1)) fun a => ?_).trans
    (broadcastInDim_apply ![0] bcast_S100000_S100000x1_0 r (ix2 p (0 : Fin 1)) (ix1 p) fun a => ?_)
  · match a with
    | ⟨0, _⟩ => show p.val = if (100000 : Nat) = 1 then 0 else p.val; rw [if_neg (by decide)]
    | ⟨1, _⟩ => show 0 = if (1 : Nat) = 1 then 0 else q.val; rw [if_pos rfl]
  · match a with
    | ⟨0, _⟩ => show p.val = if (100000 : Nat) = 1 then 0 else p.val; rw [if_neg (by decide)]

/-- A clamped degree is not zero. -/
theorem degree_ne_zero (dst : IVec S800000 32) (j : S100000.Idx) : degree dst j ≠ 0 := by
  unfold degree
  generalize Host.scatterAdd scatter_S100000_S800000x1_S800000_n_0_0_1
      (broadcastInDim S100000 ![] bcast_S_S100000 (constant (F := Ideal) S_ .f32 0x00000000#32))
      (broadcastInDim S800000x1 ![0] bcast_S800000_S800000x1_0 dst)
      (broadcastInDim S800000 ![] bcast_S_S800000 (constant (F := Ideal) S_ .f32 0x3F800000#32)) = g
  rw [maximumf_apply, broadcastInDim_scalar_apply, constant_apply, Ideal.ofBits_one_f32]
  exact clamp_ne_zero _

/-- The program's neighbour mean is the edge sum divided by the clamped degree. -/
theorem meanBy_eq (src dst : IVec S800000 32) (h : FVec Ideal S100000x128 .f32) :
    meanBy src dst h = mean (edgeSum src dst h) (degree dst) := by
  have hd := degree_ne_zero dst
  unfold meanBy recip
  generalize edgeSum src dst h = A
  generalize degree dst = d at hd ⊢
  refine Eq.trans ?_ (mean_of_reciprocal A d hd)
  funext i
  obtain ⟨p, q, rfl⟩ : ∃ (p : Fin 100000) (q : Fin 128), i = ix2 p q := ⟨i 0, i 1, eq_ix2 i⟩
  rw [mulf_apply, column_along_rows, hostDivf_apply, broadcastInDim_scalar_apply, constant_apply, Ideal.ofBits_one_f32]

/-! ## What the calls find -/

variable (m : (ℓ : Loc nD τ sig) → Buf (Elt Ideal) ℓ) (ρ : Dev nD → PrngReg)

/-- The first call's operands: the input features, their neighbour mean, the two transposed weight matrices, the bias as
    one row. -/
theorem entry0_x (c : Dev nD) : V1 m ρ c main_arg0 = m ((c : Thread nD τ).loc main_arg0) := by
  show StableHlo.after hostOps0 (W0 m ρ c) (Proc.devRef .tc main_arg0) = _
  after_results <;> rfl
theorem entry0_hn (c : Dev nD) : V1 m ρ c main_v20
    = meanBy (m ((c : Thread nD τ).loc main_arg1)) (m ((c : Thread nD τ).loc main_arg2)) (m ((c : Thread nD τ).loc main_arg0)) := by
  show StableHlo.after hostOps0 (W0 m ρ c) (Proc.devRef .tc main_v20) = _
  unfold meanBy edgeSum recip degree
  after_results_simp <;> rfl
theorem entry0_ws (c : Dev nD) : V1 m ρ c main_v21
    = transpose S128x128 [1, 0] (m ((c : Thread nD τ).loc main_arg3)) transposes_S128x128_S128x128_1_0 := by
  show StableHlo.after hostOps0 (W0 m ρ c) (Proc.devRef .tc main_v21) = _
  after_results <;> rfl
theorem entry0_wn (c : Dev nD) : V1 m ρ c main_v22
    = transpose S128x128 [1, 0] (m ((c : Thread nD τ).loc main_arg4)) transposes_S128x128_S128x128_1_0 := by
  show StableHlo.after hostOps0 (W0 m ρ c) (Proc.devRef .tc main_v22) = _
  after_results <;> rfl
theorem entry0_b (c : Dev nD) : V1 m ρ c main_v23
    = shapeCast S1x128 (m ((c : Thread nD τ).loc main_arg5)) shapeCasts_S128_S1x128 := by
  show StableHlo.after hostOps0 (W0 m ρ c) (Proc.devRef .tc main_v23) = _
  after_results <;> rfl

/-- Between the calls: the edge lists, the second layer's parameters and the reciprocal degree are as the first stretch
    of host operations left them, the first call having written its result array only. -/
theorem mid_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem mid_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem mid_ws (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem mid_wn (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem mid_b (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem mid_recip (c : Dev nD) : W2 m ρ c (Proc.devRef .tc main_v7) = recip (m ((c : Thread nD τ).loc main_arg2)) :=
  (W2_of_ne m ρ c main_v7 (by decide)).trans (by
    show StableHlo.after hostOps0 (W0 m ρ c) (Proc.devRef .tc main_v7) = _
    unfold recip degree
    after_results_simp <;> rfl)
/-- The hidden features are what the first call left in its result array. -/
theorem mid_h (c : Dev nD) : W2 m ρ c (Proc.devRef .tc main_v24) = (dat0 (V1 m ρ) c).arrAt 5 cfg0.N :=
  W2_arr m ρ c 5

/-- The second call's operands: the hidden features, their neighbour mean, the two transposed weight matrices, the bias
    as one row. -/
theorem entry1_h (c : Dev nD) : V3 m ρ c main_v24 = (dat0 (V1 m ρ) c).arrAt 5 cfg0.N := by
  show StableHlo.after hostOps1 (W2 m ρ c) (Proc.devRef .tc main_v24) = _
  after_results
  exact mid_h m ρ c
theorem entry1_hn (c : Dev nD) : V3 m ρ c main_v37
    = meanBy (m ((c : Thread nD τ).loc main_arg1)) (m ((c : Thread nD τ).loc main_arg2)) ((dat0 (V1 m ρ) c).arrAt 5 cfg0.N) := by
  show StableHlo.after hostOps1 (W2 m ρ c) (Proc.devRef .tc main_v37) = _
  after_results_simp
  rw [mid_h, mid_src, mid_dst, mid_recip]
  unfold meanBy edgeSum
  rfl
theorem entry1_ws (c : Dev nD) : V3 m ρ c main_v38
    = transpose S128x64 [1, 0] (m ((c : Thread nD τ).loc main_arg6)) transposes_S64x128_S128x64_1_0 := by
  show StableHlo.after hostOps1 (W2 m ρ c) (Proc.devRef .tc main_v38) = _
  after_results
  rw [mid_ws]
theorem entry1_wn (c : Dev nD) : V3 m ρ c main_v39
    = transpose S128x64 [1, 0] (m ((c : Thread nD τ).loc main_arg7)) transposes_S64x128_S128x64_1_0 := by
  show StableHlo.after hostOps1 (W2 m ρ c) (Proc.devRef .tc main_v39) = _
  after_results
  rw [mid_wn]
theorem entry1_b (c : Dev nD) : V3 m ρ c main_v40
    = shapeCast S1x64 (m ((c : Thread nD τ).loc main_arg8)) shapeCasts_S64_S1x64 := by
  show StableHlo.after hostOps1 (W2 m ρ c) (Proc.devRef .tc main_v40) = _
  after_results
  rw [mid_b]
  rfl

/-- The program's result array after the second call. -/
theorem exit1_out (c : Dev nD) : W4 m ρ c (Proc.devRef .tc main_v41) = (dat1 (V3 m ρ) c).arrAt 5 cfg1.N :=
  W4_arr m ρ c 5

end Cert.KernelIdeal.Edges

end
-- ==== Proof.RefSide.lean ====
/-
  The reference program's result as the specification.

  The reference computes each layer on the host: two products of the whole 100000-row matrices with the transposed
  weights, their sum, plus the bias laid along every row; the neighbour mean is the edge sum DIVIDED by the clamped
  degree laid along each row; between the layers `max · 0`. Read at an entry, a host product is the sum over the
  128 contracted positions, so each of these is the specification's function of the same name, and the reference's
  whole result term is `out` of the edge sum, the clamped degree and the arguments.
-/
import proofs.«136425_j25598005084435_1_alg».proof.Proof.Gen.ReferenceIdeal.Run
import proofs.«136425_j25598005084435_1_alg».proof.Proof.Spec
import Idealize.ShloMosaic.Lib.Pipeline.Value
import Idealize.ShloMosaic.Lib.KernelVsHost
import Idealize.ShloMosaic.Lib.IdealHost

set_option maxRecDepth 16384

noncomputable section

namespace Cert.ReferenceIdeal.Edges

open Idealize.ShloMosaic Idealize.ShloMosaic.TcCoe Idealize.SL.Sem Idealize.ShloMosaic.ValueIdx
open Cert.ReferenceIdeal Cert.ReferenceIdeal.Gen Cert.Sage

/-! ## The aggregation over the edges, as the reference spells it -/

/-- The sum, into each node's row, of the feature rows of the sources of the edges into it. -/
def edgeSum (src dst : IVec S800000 32) (h : FVec Ideal S100000x128 .f32) :
    FVec Ideal S100000x128 .f32 :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The in-degree of each node, clamped below by one. -/
def degree (dst : IVec S800000 32) : FVec Ideal S100000 .f32 :=
  maximumf
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S100000 ![] bcast_S_S100000 (constant (F := Ideal) S_ .f32 0x3F800000#32))

/-! ## The host's operations as the specification's -/

/-- The edge sum divided by a column laid along each row is the neighbour mean. -/
theorem mean_host (a : FVec Ideal S100000x128 .f32) (d : FVec Ideal S100000 .f32) :
    Host.divf a (broadcastInDim S100000x128 ![0, 1] bcast_S100000x1_S100000x128_0_1 (broadcastInDim S100000x1 ![0] bcast_S100000_S100000x1_0 d))
      = mean a d := by
  funext i
  obtain ⟨p, q, rfl⟩ : ∃ (p : Fin 100000) (q : Fin 128), i = ix2 p q := ⟨i 0, i 1, eq_ix2 i⟩
  show Ideal.div (a (ix2 p q)) _ = Ideal.div (a (ix2 p q)) (d (ix1 p))
  refine congrArg (Ideal.div (a (ix2 p q))) ?_
  refine (broadcastInDim_apply ![0, 1] bcast_S100000x1_S100000x128_0_1 _ (ix2 p q) (ix2 p (0 : Fin 1)) fun a => ?_).trans
    (broadcastInDim_apply ![0] bcast_S100000_S100000x1_0 d (ix2 p (0 : Fin 1)) (ix1 p) fun a => ?_)
  · match a with
    | ⟨0, _⟩ => show p.val = if (100000 : Nat) = 1 then 0 else p.val; rw [if_neg (by decide)]
    | ⟨1, _⟩ => show 0 = if (1 : Nat) = 1 then 0 else q.val; rw [if_pos rfl]
  · match a with
    | ⟨0, _⟩ => show p.val = if (100000 : Nat) = 1 then 0 else p.val; rw [if_neg (by decide)]

/-- The maximum with a zero laid everywhere is the entrywise `max · 0`. -/
theorem clamp_host (a : FVec Ideal S100000x128 .f32) :
    maximumf a (broadcastInDim S100000x128 ![] bcast_S_S100000x128 (constant (F := Ideal) S_ .f32 0x00000000#32))
      = fun i => max (a i) 0 := by
  funext i
  show max (a i) (broadcastInDim S100000x128 ![] bcast_S_S100000x128 (constant (F := Ideal) S_ .f32 0x00000000#32) i) = _
  rw [broadcastInDim_scalar_apply]
  show max (a i) (Ideal.ofBits .f32 0x00000000#32) = _
  rw [Ideal.ofBits_zero_f32]

theorem dotA_plain : dot_S100000x128_S128x128_S100000x128_1_0_0_1_n_n = DotDims.plain 100000 128 128 := rfl
theorem dotB_plain : dot_S100000x128_S128x64_S100000x64_1_0_0_1_n_n = DotDims.plain 100000 128 64 := rfl

/-- The first layer's dense part on the host is `layer`. -/
theorem layer_host128 (h hn : FVec Ideal S100000x128 .f32) (ws wn : FVec Ideal S128x128 .f32)
    (b : FVec Ideal S128 .f32) :
    addf (addf (Host.dotGeneral dot_S100000x128_S128x128_S100000x128_1_0_0_1_n_n none h ws)
        (Host.dotGeneral dot_S100000x128_S128x128_S100000x128_1_0_0_1_n_n none hn wn))
      (broadcastInDim S100000x128 ![0, 1] bcast_S1x128_S100000x128_0_1 (broadcastInDim S1x128 ![1] bcast_S128_S1x128_1 b))
      = layer h hn ws wn (fun q => b (ix1 q)) := by
  funext i
  obtain ⟨p, q, rfl⟩ : ∃ (p : Fin 100000) (q : Fin 128), i = ix2 p q := ⟨i 0, i 1, eq_ix2 i⟩
  rw [dotA_plain]
  show Host.dotGeneral (DotDims.plain 100000 128 128) none h ws (ix2 p q) + Host.dotGeneral (DotDims.plain 100000 128 128) none hn wn (ix2 p q)
      + broadcastInDim ⟨2, ![100000, 128]⟩ ![0, 1] bcast_S1x128_S100000x128_0_1 (broadcastInDim S1x128 ![1] bcast_S128_S1x128_1 b) (ix2 p q) = _
  rw [dotGeneral_plain_apply, dotGeneral_plain_apply, broadcastInDim_oneRow_apply]
  refine congrArg₂ (· + ·) rfl ?_
  exact broadcastInDim_apply ![1] bcast_S128_S1x128_1 b (ix2 (0 : Fin 1) q) (ix1 q) fun a => by
    match a with
    | ⟨0, _⟩ => show q.val = if (128 : Nat) = 1 then 0 else q.val; rw [if_neg (by decide)]

/-- The second layer's dense part on the host is `layer`. -/
theorem layer_host64 (h hn : FVec Ideal S100000x128 .f32) (ws wn : FVec Ideal S128x64 .f32)
    (b : FVec Ideal S64 .f32) :
    addf (addf (Host.dotGeneral dot_S100000x128_S128x64_S100000x64_1_0_0_1_n_n none h ws)
        (Host.dotGeneral dot_S100000x128_S128x64_S100000x64_1_0_0_1_n_n none hn wn))
      (broadcastInDim S100000x64 ![0, 1] bcast_S1x64_S100000x64_0_1 (broadcastInDim S1x64 ![1] bcast_S64_S1x64_1 b))
      = layer h hn ws wn (fun q => b (ix1 q)) := by
  funext i
  obtain ⟨p, q, rfl⟩ : ∃ (p : Fin 100000) (q : Fin 64), i = ix2 p q := ⟨i 0, i 1, eq_ix2 i⟩
  rw [dotB_plain]
  show Host.dotGeneral (DotDims.plain 100000 128 64) none h ws (ix2 p q) + Host.dotGeneral (DotDims.plain 100000 128 64) none hn wn (ix2 p q)
      + broadcastInDim ⟨2, ![100000, 64]⟩ ![0, 1] bcast_S1x64_S100000x64_0_1 (broadcastInDim S1x64 ![1] bcast_S64_S1x64_1 b) (ix2 p q) = _
  rw [dotGeneral_plain_apply, dotGeneral_plain_apply, broadcastInDim_oneRow_apply]
  refine congrArg₂ (· + ·) rfl ?_
  exact broadcastInDim_apply ![1] bcast_S64_S1x64_1 b (ix2 (0 : Fin 1) q) (ix1 q) fun a => by
    match a with
    | ⟨0, _⟩ => show q.val = if (64 : Nat) = 1 then 0 else q.val; rw [if_neg (by decide)]

/-! ## The reference's result -/

/-- The reference's result term is the specification at the edge sum, the clamped degree and the arguments. -/
theorem result_eq (m : (ℓ : Loc nD τ sig) → Buf (Elt Ideal) ℓ) (c : Dev nD) :
    Cert.ReferenceIdeal.Value.res_main_v54 m c
      = out (edgeSum (m ((c.tc : Thread nD τ).loc main_arg1)) (m ((c.tc : Thread nD τ).loc main_arg2)))
          (degree (m ((c.tc : Thread nD τ).loc main_arg2)))
          (m ((c.tc : Thread nD τ).loc main_arg0))
          (transpose S128x128 [1, 0] (m ((c.tc : Thread nD τ).loc main_arg3)) transposes_S128x128_S128x128_1_0)
          (transpose S128x128 [1, 0] (m ((c.tc : Thread nD τ).loc main_arg4)) transposes_S128x128_S128x128_1_0)
          (fun q => (m ((c.tc : Thread nD τ).loc main_arg5) : S128.Idx → EReal) (ix1 q))
          (transpose S128x64 [1, 0] (m ((c.tc : Thread nD τ).loc main_arg6)) transposes_S64x128_S128x64_1_0)
          (transpose S128x64 [1, 0] (m ((c.tc : Thread nD τ).loc main_arg7)) transposes_S64x128_S128x64_1_0)
          (fun q => (m ((c.tc : Thread nD τ).loc main_arg8) : S64.Idx → EReal) (ix1 q)) := by
  unfold Cert.ReferenceIdeal.Value.res_main_v54
  rw [layer_host128, layer_host64, clamp_host, mean_host, mean_host]
  unfold Cert.Sage.out Cert.Sage.hidden edgeSum degree
  rfl

end Cert.ReferenceIdeal.Edges

end
-- ==== Proof.KernelValue.lean ====
/-
  The kernel program's result as the specification.

  Reading @main from the launch: the first call finds the input features, their neighbour mean (the edge sum times
  the reciprocal degree, which is the edge sum divided by the degree), the transposed first-layer weights and the
  first-layer bias as one row, so its result array is the hidden features; the second call finds the hidden
  features, THEIR neighbour mean, the transposed second-layer weights and the second-layer bias, so the program's
  result array is `out` of the edge sum, the clamped degree and the arguments.

  Last, the two programs' edge sums and degrees are the same functions: the records of dimension numbers they are
  printed with have the same fields.
-/
import proofs.«136425_j25598005084435_1_alg».proof.Proof.KernelRun
import proofs.«136425_j25598005084435_1_alg».proof.Proof.Region0
import proofs.«136425_j25598005084435_1_alg».proof.Proof.Region1
import proofs.«136425_j25598005084435_1_alg».proof.Proof.Edges
import proofs.«136425_j25598005084435_1_alg».proof.Proof.RefSide

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.Edges Cert.Sage

variable (m : (ℓ : Loc nD τ sig) → Buf (Elt Ideal) ℓ) (ρ : Dev nD → PrngReg)

/-- A bias cast to one row and read along that row is the bias. -/
theorem bias_row128 (b : FVec Ideal S128 .f32) :
    (fun q : Fin 128 => shapeCast S1x128 b shapeCasts_S128_S1x128 (ix2 (0 : Fin 1) q)) = fun q => b (ix1 q) :=
  funext fun q => shapeCast_a_1a_apply b shapeCasts_S128_S1x128 (0 : Fin 1) q
theorem bias_row64 (b : FVec Ideal S64 .f32) :
    (fun q : Fin 64 => shapeCast S1x64 b shapeCasts_S64_S1x64 (ix2 (0 : Fin 1) q)) = fun q => b (ix1 q) :=
  funext fun q => shapeCast_a_1a_apply b shapeCasts_S64_S1x64 (0 : Fin 1) q

/-- The first call's result array holds the hidden features. -/
theorem hidden_eq (c : Dev nD) : (dat0 (V1 m ρ) c).arrAt 5 cfg0.N
    = hidden (edgeSum (m ((c : Thread nD τ).loc main_arg1)) (m ((c : Thread nD τ).loc main_arg2)))
        (degree (m ((c : Thread nD τ).loc main_arg2)))
        (m ((c : Thread nD τ).loc main_arg0))
        (transpose S128x128 [1, 0] (m ((c : Thread nD τ).loc main_arg3)) transposes_S128x128_S128x128_1_0)
        (transpose S128x128 [1, 0] (m ((c : Thread nD τ).loc main_arg4)) transposes_S128x128_S128x128_1_0)
        (fun q => (m ((c : Thread nD τ).loc main_arg5) : S128.Idx → EReal) (ix1 q)) := by
  rw [Cert.KernelIdeal.Dense.final0]
  unfold Cert.KernelIdeal.Dense.result0
  rw [entry0_x, entry0_hn, entry0_ws, entry0_wn, entry0_b, meanBy_eq, bias_row128]
  rfl

/-- The program's result array holds the specification's result. -/
theorem out_eq (c : Dev nD) : W4 m ρ c (Proc.devRef .tc main_v41)
    = out (edgeSum (m ((c : Thread nD τ).loc main_arg1)) (m ((c : Thread nD τ).loc main_arg2)))
        (degree (m ((c : Thread nD τ).loc main_arg2)))
        (m ((c : Thread nD τ).loc main_arg0))
        (transpose S128x128 [1, 0] (m ((c : Thread nD τ).loc main_arg3)) transposes_S128x128_S128x128_1_0)
        (transpose S128x128 [1, 0] (m ((c : Thread nD τ).loc main_arg4)) transposes_S128x128_S128x128_1_0)
        (fun q => (m ((c : Thread nD τ).loc main_arg5) : S128.Idx → EReal) (ix1 q))
        (transpose S128x64 [1, 0] (m ((c : Thread nD τ).loc main_arg6)) transposes_S64x128_S128x64_1_0)
        (transpose S128x64 [1, 0] (m ((c : Thread nD τ).loc main_arg7)) transposes_S64x128_S128x64_1_0)
        (fun q => (m ((c : Thread nD τ).loc main_arg8) : S64.Idx → EReal) (ix1 q)) := by
  rw [exit1_out, Cert.KernelIdeal.Out.final1]
  unfold Cert.KernelIdeal.Out.result1
  rw [entry1_h, entry1_hn, entry1_ws, entry1_wn, entry1_b, meanBy_eq, bias_row64, hidden_eq]
  rfl

end Cert.KernelIdeal.Whole

/-! ## The two programs' spellings of the edge sum and the degree agree -/

namespace Cert.Sage

open Idealize.ShloMosaic

theorem scatter_rows_agree :
    Cert.ReferenceIdeal.scatter_S100000x128_S800000x1_S800000x128_1_0_0_1 = Cert.KernelIdeal.scatter_S100000x128_S800000x1_S800000x128_1_0_0_1 := rfl
theorem gather_rows_agree :
    Cert.ReferenceIdeal.gather_S100000x128_S800000x1_S800000x128_1_0_n_n_0_1_1128 = Cert.KernelIdeal.gather_S100000x128_S800000x1_S800000x128_1_0_n_n_0_1_1128 := rfl
theorem scatter_entries_agree :
    Cert.ReferenceIdeal.scatter_S100000_S800000x1_S800000_n_0_0_1 = Cert.KernelIdeal.scatter_S100000_S800000x1_S800000_n_0_0_1 := rfl

theorem edgeSum_agree : Cert.ReferenceIdeal.Edges.edgeSum = Cert.KernelIdeal.Edges.edgeSum := by
  funext src dst h
  unfold Cert.ReferenceIdeal.Edges.edgeSum Cert.KernelIdeal.Edges.edgeSum
  rw [scatter_rows_agree, gather_rows_agree]

theorem degree_agree : Cert.ReferenceIdeal.Edges.degree = Cert.KernelIdeal.Edges.degree := by
  funext dst
  unfold Cert.ReferenceIdeal.Edges.degree Cert.KernelIdeal.Edges.degree
  rw [scatter_entries_agree]

end Cert.Sage

end
-- ==== Proof.lean ====
/-
  Two layers of a graph convolution with a mean aggregator, computed by a program with two pallas_calls against a
  plain jnp reference: the claims.

  Both programs compute, for features `h`,  `h · Wsᵀ + mean(h) · Wnᵀ + b`  twice with `max · 0` in between, where
  `mean(h)` averages the rows of `h` over each node's incoming edges (a gather and an accumulating scatter on the
  host in both programs) with the in-degree clamped below by one. They differ in two ways. The kernel program does
  the dense part of each layer inside a pallas_call over 20 row blocks of 5000 rows, with the operands converted to
  a shorter float format before each product; on extended reals the conversions are the identity and a row block
  of a product is the product of the row block, so each call's result array is the layer's dense part of the arrays
  it finds (Proof/Region0.lean, Proof/Region1.lean). And the kernel program multiplies the edge sum by the reciprocal
  of the clamped degree, computed once, where the reference divides by the clamped degree; since a clamped degree
  is at least one these agree on all extended reals, with no use of the precondition (Proof/Spec.lean,
  Proof/Edges.lean). So both results are the one function `Cert.Sage.out` of the arguments
  (Proof/KernelValue.lean for the kernel program, Proof/RefSide.lean for the reference).

  The three frame claims are the generated frame certificates of the two kernel programs and the reference's
  generated run with its result dropped; the idealization rewrote nothing, so `preserves` is `True`.
-/
import proofs.«136425_j25598005084435_1_alg».proof.Defs
import proofs.«136425_j25598005084435_1_alg».proof.Proof.Gen.Kernel
import proofs.«136425_j25598005084435_1_alg».proof.Proof.Gen.Kernel.Skeleton
import proofs.«136425_j25598005084435_1_alg».proof.Proof.Gen.Kernel.Launch
import proofs.«136425_j25598005084435_1_alg».proof.Proof.Gen.Kernel.Points
import proofs.«136425_j25598005084435_1_alg».proof.Proof.Gen.Kernel.Frame
import proofs.«136425_j25598005084435_1_alg».proof.Proof.Gen.KernelIdeal
import proofs.«136425_j25598005084435_1_alg».proof.Proof.Gen.KernelIdeal.Skeleton
import proofs.«136425_j25598005084435_1_alg».proof.Proof.Gen.KernelIdeal.Launch
import proofs.«136425_j25598005084435_1_alg».proof.Proof.Gen.KernelIdeal.Points
import proofs.«136425_j25598005084435_1_alg».proof.Proof.Gen.KernelIdeal.Frame
import proofs.«136425_j25598005084435_1_alg».proof.Proof.Gen.ReferenceIdeal
import proofs.«136425_j25598005084435_1_alg».proof.Proof.Gen.Pre_finite_inputs
import proofs.«136425_j25598005084435_1_alg».proof.Proof.Gen.ReferenceIdeal.Run
import proofs.«136425_j25598005084435_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the specification's result of those arguments:
    the kernel program by its two calls read as functions on arrays, the reference by its run's term read at an
    entry; the two spellings of the edge sum and of the degree are the same functions. -/
theorem algebraic : Cert.algebraic_KernelIdeal_ReferenceIdeal := by
  intro m ρ m' ρ' _ hagree
  refine ⟨fun c => Cert.KernelIdeal.Gen.W4 m ρ c (Proc.devRef .tc Cert.KernelIdeal.main_v41),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W4 m ρ c (Proc.devRef .tc Cert.KernelIdeal.main_v41)
  obtain ⟨e0, e1, e2, e3, e4, e5, e6, e7, e8⟩ := hagree c
  rw [Cert.ReferenceIdeal.Edges.result_eq, Cert.KernelIdeal.Whole.out_eq, e0, e1, e2, e3, e4, e5, e6, e7, e8,
    Cert.Sage.edgeSum_agree, Cert.Sage.degree_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
